-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S4x2048x64 : Shape := ⟨3, ![4, 2048, 64]⟩
abbrev S4x2x64x1 : Shape := ⟨4, ![4, 2, 64, 1]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S4x2048x64 : S_.BroadcastsInDim S4x2048x64 (![] : Fin 0 → Fin S4x2048x64.rank)
  reducesTo_S4x2048x64_S_d0_1_2 : S4x2048x64.ReducesTo [0, 1, 2] S_
  bcast_S_S4x2x64x1 : S_.BroadcastsInDim S4x2x64x1 (![] : Fin 0 → Fin S4x2x64x1.rank)
  reducesTo_S4x2x64x1_S_d0_1_2_3 : S4x2x64x1.ReducesTo [0, 1, 2, 3] S_

variable [Facts]

def fn_part1 {F : FTy → Type} [FloatOps F] (main_v13 : IVec S_ 1) (main_v16 : IVec S4x2x64x1 1) : IVec S_ 1 :=
  let main_c_5 : IVec S_ 1 := constantI S_ 1 1#1
  let main_v17 : IVec S_ 1 := (fun x v => Host.reduce IntOp.andi x v reducesTo_S4x2x64x1_S_d0_1_2_3 h_S_) main_v16 main_c_5
  let main_v18 : IVec S_ 1 := andi main_v13 main_v17
  main_v18

def fn {F : FTy → Type} [FloatOps F] (main_arg0 : FVec F S2048x2048 .f32) (main_arg1 : FVec F S2048x2048 .f32) (main_arg2 : FVec F S4x2048x64 .f32) (main_arg3 : FVec F S4x2x64x1 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S4x2048x64 .f32 := Host.absf main_arg2
  let main_cst_2 : FVec F S_ .f32 := constant S_ .f32 0x7F800000#32
  let main_v10 : FVec F S4x2048x64 .f32 := broadcastInDim S4x2048x64 ![] bcast_S_S4x2048x64 main_cst_2
  let main_v11 : IVec S4x2048x64 1 := cmpf .olt main_v9 main_v10
  let main_c_3 : IVec S_ 1 := constantI S_ 1 1#1
  let main_v12 : IVec S_ 1 := (fun x v => Host.reduce IntOp.andi x v reducesTo_S4x2048x64_S_d0_1_2 h_S_) main_v11 main_c_3
  let main_v13 : IVec S_ 1 := andi main_v8 main_v12
  let main_v14 : FVec F S4x2x64x1 .f32 := Host.absf main_arg3
  let main_cst_4 : FVec F S_ .f32 := constant S_ .f32 0x7F800000#32
  let main_v15 : FVec F S4x2x64x1 .f32 := broadcastInDim S4x2x64x1 ![] bcast_S_S4x2x64x1 main_cst_4
  let main_v16 : IVec S4x2x64x1 1 := cmpf .olt main_v14 main_v15
  fn_part1 (F := F) main_v13 main_v16
-- ==== Kernel.lean ====
abbrev S2048x2048 : Shape := ⟨2, ![2048, 2048]⟩
abbrev S4x2048x64 : Shape := ⟨3, ![4, 2048, 64]⟩
abbrev S4x2x64x1 : Shape := ⟨4, ![4, 2, 64, 1]⟩
abbrev S4x1x64x1 : Shape := ⟨4, ![4, 1, 64, 1]⟩
abbrev S4x64x1 : Shape := ⟨3, ![4, 64, 1]⟩
abbrev S4x2048x1 : Shape := ⟨3, ![4, 2048, 1]⟩
abbrev S4x2048 : Shape := ⟨2, ![4, 2048]⟩
abbrev S4x1x2048 : Shape := ⟨3, ![4, 1, 2048]⟩
abbrev S4x2048x2048 : Shape := ⟨3, ![4, 2048, 2048]⟩
abbrev S256x2048 : Shape := ⟨2, ![256, 2048]⟩
abbrev S1x256x1 : Shape := ⟨3, ![1, 256, 1]⟩
abbrev S1x1x2048 : Shape := ⟨3, ![1, 1, 2048]⟩
abbrev S1x256x2048 : Shape := ⟨3, ![1, 256, 2048]⟩
abbrev S256x1 : Shape := ⟨2, ![256, 1]⟩
abbrev S1x2048 : Shape := ⟨2, ![1, 2048]⟩
abbrev S256 : Shape := ⟨1, ![256]⟩

abbrev nBuf : Space → Nat
  | .hbm => 15
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x2048x64, .f32⟩
  | .hbm, ⟨3, _⟩ => ⟨S4x2x64x1, .f32⟩
  | .hbm, ⟨4, _⟩ => ⟨S4x1x64x1, .f32⟩
  | .hbm, ⟨5, _⟩ => ⟨S4x64x1, .f32⟩
  | .hbm, ⟨6, _⟩ => ⟨S4x2048x1, .f32⟩
  | .hbm, ⟨7, _⟩ => ⟨S4x2048, .f32⟩
  | .hbm, ⟨8, _⟩ => ⟨S4x1x64x1, .f32⟩
  | .hbm, ⟨9, _⟩ => ⟨S4x64x1, .f32⟩
  | .hbm, ⟨10, _⟩ => ⟨S4x2048x1, .f32⟩
  | .hbm, ⟨11, _⟩ => ⟨S4x2048, .f32⟩
  | .hbm, ⟨12, _⟩ => ⟨S4x2048x1, .f32⟩
  | .hbm, ⟨13, _⟩ => ⟨S4x1x2048, .f32⟩
  | .hbm, ⟨14, _⟩ => ⟨S4x2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x256x1, .f32⟩
  | .local _ .vmem, ⟨5, _⟩ => ⟨S1x256x1, .f32⟩
  | .local _ .vmem, ⟨6, _⟩ => ⟨S1x1x2048, .f32⟩
  | .local _ .vmem, ⟨7, _⟩ => ⟨S1x1x2048, .f32⟩
  | .local _ .vmem, ⟨8, _⟩ => ⟨S1x256x2048, .f32⟩
  | .local _ .vmem, ⟨9, _⟩ => ⟨S1x256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S4x2x64x1_S4x1x64x1_0_0_0_0 : S4x2x64x1.Slices ![0, 0, 0, 0] S4x1x64x1
  shapeCasts_S4x1x64x1_S4x64x1 : S4x1x64x1.ShapeCasts S4x64x1
  shapeCasts_S4x2048x1_S4x2048 : S4x2048x1.ShapeCasts S4x2048
  slices_S4x2x64x1_S4x1x64x1_0_1_0_0 : S4x2x64x1.Slices ![0, 1, 0, 0] S4x1x64x1
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S256x1_S256x2048 : S256x1.Broadcasts S256x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S4x2048x64_S4x64x1_S4x2048x1_2_1_1_2_0_0_wf : DotDims.WF S4x2048x64 S4x64x1 S4x2048x1 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S4x2048x1.size a
  hwx0_2 : ∀ i : grid0.Coords, EltTy.bits .f32 = 32 ∨ (Rect.block (s := S4x2048x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x2048.size a
  hwx0_3 : ∀ i : grid0.Coords, EltTy.bits .f32 = 32 ∨ (Rect.block (s := S4x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S4x2048x2048.size a
  hwx0_4 : ∀ i : grid0.Coords, EltTy.bits .f32 = 32 ∨ (Rect.block (s := S4x2048x2048) S1x256x2048.size (cc0_transform_4 i) (hinb0_4 i)).WholeWords (EltTy.packing .f32)

variable [Facts₀]

def dot_S4x2048x64_S4x64x1_S4x2048x1_2_1_1_2_0_0 : DotDims S4x2048x64 S4x64x1 S4x2048x1 where
  lhsContracting := [2]
  rhsContracting := [1]
  lhsNonContracting := [1]
  rhsNonContracting := [2]
  lhsBatch := [0]
  rhsBatch := [0]
  wf := dot_S4x2048x64_S4x64x1_S4x2048x1_2_1_1_2_0_0_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S4x2048x64 : Shape := ⟨3, ![4, 2048, 64]⟩
abbrev S4x2x64x1 : Shape := ⟨4, ![4, 2, 64, 1]⟩
abbrev S4x1x64x1 : Shape := ⟨4, ![4, 1, 64, 1]⟩
abbrev S4x64x1 : Shape := ⟨3, ![4, 64, 1]⟩
abbrev S4x2048x1 : Shape := ⟨3, ![4, 2048, 1]⟩
abbrev S4x2048 : Shape := ⟨2, ![4, 2048]⟩
abbrev S4x1x2048 : Shape := ⟨3, ![4, 1, 2048]⟩
abbrev S4x2048x2048 : Shape := ⟨3, ![4, 2048, 2048]⟩
abbrev S_ : Shape := ⟨0, ![]⟩
abbrev S1x2048x2048 : Shape := ⟨3, ![1, 2048, 2048]⟩

abbrev nBuf : Space → Nat
  | .hbm => 92
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x2048x64, .f32⟩
  | .hbm, ⟨3, _⟩ => ⟨S4x2x64x1, .f32⟩
  | .hbm, ⟨4, _⟩ => ⟨S4x1x64x1, .f32⟩
  | .hbm, ⟨5, _⟩ => ⟨S4x64x1, .f32⟩
  | .hbm, ⟨6, _⟩ => ⟨S4x2048x1, .f32⟩
  | .hbm, ⟨7, _⟩ => ⟨S4x2048, .f32⟩
  | .hbm, ⟨8, _⟩ => ⟨S4x1x64x1, .f32⟩
  | .hbm, ⟨9, _⟩ => ⟨S4x64x1, .f32⟩
  | .hbm, ⟨10, _⟩ => ⟨S4x2048x1, .f32⟩
  | .hbm, ⟨11, _⟩ => ⟨S4x2048, .f32⟩
  | .hbm, ⟨12, _⟩ => ⟨S4x2048x1, .f32⟩
  | .hbm, ⟨13, _⟩ => ⟨S4x1x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S2048x2048, .f32⟩
  | .hbm, ⟨27, _⟩ => ⟨S2048x2048, .i1⟩
  | .hbm, ⟨28, _⟩ => ⟨S1x2048x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S_, .f32⟩
  | .hbm, ⟨33, _⟩ => ⟨S4x2048x2048, .i1⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048, .f32⟩
  | .hbm, ⟨38, _⟩ => ⟨S_, .f32⟩
  | .hbm, ⟨39, _⟩ => ⟨S4x2048, .f32⟩
  | .hbm, ⟨40, _⟩ => ⟨S4x2048, .f32⟩
  | .hbm, ⟨41, _⟩ => ⟨S4x2048x1, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048, .f32⟩
  | .hbm, ⟨47, _⟩ => ⟨S4x2048x1, .f32⟩
  | .hbm, ⟨48, _⟩ => ⟨S4x2048x2048, .f32⟩
  | .hbm, ⟨49, _⟩ => ⟨S4x2048x2048, .f32⟩
  | .hbm, ⟨50, _⟩ => ⟨S_, .f32⟩
  | .hbm, ⟨51, _⟩ => ⟨S_, .f32⟩
  | .hbm, ⟨52, _⟩ => ⟨S4x2048x2048, .i1⟩
  | .hbm, ⟨53, _⟩ => ⟨S4x2048x2048, .f32⟩
  | .hbm, ⟨54, _⟩ => ⟨S4x2048x2048, .f32⟩
  | .hbm, ⟨55, _⟩ => ⟨S_, .f32⟩
  | .hbm, ⟨56, _⟩ => ⟨S2048x2048, .f32⟩
  | .hbm, ⟨57, _⟩ => ⟨S2048x2048, .i1⟩
  | .hbm, ⟨58, _⟩ => ⟨S1x2048x2048, .f32⟩
  | .hbm, ⟨59, _⟩ => ⟨S4x2048x2048, .f32⟩
  | .hbm, ⟨60, _⟩ => ⟨S4x2048x2048, .f32⟩
  | .hbm, ⟨61, _⟩ => ⟨S_, .f32⟩
  | .hbm, ⟨62, _⟩ => ⟨S_, .f32⟩
  | .hbm, ⟨63, _⟩ => ⟨S4x2048x2048, .i1⟩
  | .hbm, ⟨64, _⟩ => ⟨S4x2048x2048, .f32⟩
  | .hbm, ⟨65, _⟩ => ⟨S4x2048x2048, .f32⟩
  | .hbm, ⟨66, _⟩ => ⟨S_, .f32⟩
  | .hbm, ⟨67, _⟩ => ⟨S4x2048, .f32⟩
  | .hbm, ⟨68, _⟩ => ⟨S_, .f32⟩
  | .hbm, ⟨69, _⟩ => ⟨S4x2048, .f32⟩
  | .hbm, ⟨70, _⟩ => ⟨S4x2048, .f32⟩
  | .hbm, ⟨71, _⟩ => ⟨S4x2048x1, .f32⟩
  | .hbm, ⟨72, _⟩ => ⟨S4x2048x2048, .f32⟩
  | .hbm, ⟨73, _⟩ => ⟨S4x2048x2048, .f32⟩
  | .hbm, ⟨74, _⟩ => ⟨S4x2048x2048, .f32⟩
  | .hbm, ⟨75, _⟩ => ⟨S_, .f32⟩
  | .hbm, ⟨76, _⟩ => ⟨S4x2048, .f32⟩
  | .hbm, ⟨77, _⟩ => ⟨S4x2048x1, .f32⟩
  | .hbm, ⟨78, _⟩ => ⟨S4x2048x2048, .f32⟩
  | .hbm, ⟨79, _⟩ => ⟨S4x2048x2048, .f32⟩
  | .hbm, ⟨80, _⟩ => ⟨S_, .f32⟩
  | .hbm, ⟨81, _⟩ => ⟨S_, .f32⟩
  | .hbm, ⟨82, _⟩ => ⟨S4x2048x2048, .i1⟩
  | .hbm, ⟨83, _⟩ => ⟨S4x2048x2048, .f32⟩
  | .hbm, ⟨84, _⟩ => ⟨S4x2048x2048, .f32⟩
  | .hbm, ⟨85, _⟩ => ⟨S_, .f32⟩
  | .hbm, ⟨86, _⟩ => ⟨S4x2048x2048, .f32⟩
  | .hbm, ⟨87, _⟩ => ⟨S4x2048x2048, .f32⟩
  | .hbm, ⟨88, _⟩ => ⟨S_, .f32⟩
  | .hbm, ⟨89, _⟩ => ⟨S4x2048x2048, .f32⟩
  | .hbm, ⟨90, _⟩ => ⟨S4x2048x2048, .f32⟩
  | .hbm, ⟨91, _⟩ => ⟨S4x2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v54 : Ref sig .tc := ⟨.hbm, 84, rfl⟩
abbrev main_cst_13 : Ref sig .tc := ⟨.hbm, 85, rfl⟩
abbrev main_v55 : Ref sig .tc := ⟨.hbm, 86, rfl⟩
abbrev main_v56 : Ref sig .tc := ⟨.hbm, 87, rfl⟩
abbrev main_cst_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]

class Facts₀ : Prop where
  slices_S4x2x64x1_S4x1x64x1_0_0_0_0 : S4x2x64x1.Slices ![0, 0, 0, 0] S4x1x64x1
  shapeCasts_S4x1x64x1_S4x64x1 : S4x1x64x1.ShapeCasts S4x64x1
  shapeCasts_S4x2048x1_S4x2048 : S4x2048x1.ShapeCasts S4x2048
  slices_S4x2x64x1_S4x1x64x1_0_1_0_0 : S4x2x64x1.Slices ![0, 1, 0, 0] S4x1x64x1
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  dot_S4x2048x64_S4x64x1_S4x2048x1_2_1_1_2_0_0_wf : DotDims.WF S4x2048x64 S4x64x1 S4x2048x1 [2] [1] [1] [2] [0] [0]

variable [Facts₀]

def dot_S4x2048x64_S4x64x1_S4x2048x1_2_1_1_2_0_0 : DotDims S4x2048x64 S4x64x1 S4x2048x1 where
  lhsContracting := [2]
  rhsContracting := [1]
  lhsNonContracting := [1]
  rhsNonContracting := [2]
  lhsBatch := [0]
  rhsBatch := [0]
  wf := dot_S4x2048x64_S4x64x1_S4x2048x1_2_1_1_2_0_0_wf

class Facts : Prop extends Facts₀ where

variable [Facts]
-- ==== Proof.GraphAttention.lean ====
/-
  Sparse graph attention, as one function on the extended reals.

  For a head h, a row r and a column c the result is
      ½ · A_long(h, r, c) + ½ · A_local(h, r, c),
  where for a mask M (an N × N array) and the scores σ(h, r, k) = 1 / (1 + e^{-(f₁(h, r) + f₂(h, k))})
      ℓ(k)       = M(r, k) · σ(h, r, k)   if M(r, k) ≠ 0,   the fill value −10⁹ otherwise,
      A(h, r, c) = e^{ℓ(c) − max_k ℓ(k)} / Σ_k e^{ℓ(k) − max_k ℓ(k)}   if M(r, c) ≠ 0,   0 otherwise:
  the softmax of a row restricted to the non-zero entries of the mask. The maximum is the fold of max
  over the row starting from −∞, the sum is the plain sum over the row; both are functions of the row alone,
  so they do not depend on how the rows are grouped into blocks.

  Two laws are all that relate the two spellings of this function met in the programs:
  1 / (1 + e^{-x}) is the logistic function of x wherever it is written out with 1.0 as a binary32 word,
  and max(−∞, x) = x.
-/
import Idealize.ShloMosaic.PureOps.Ideal
import Idealize.ShloMosaic.PureOps.Ideal.Laws
import Idealize.ShloMosaic.Lib.ValueIdx

noncomputable section

namespace GraphAttention

open Idealize.ShloMosaic Idealize.ShloMosaic.ValueIdx

/-- The number of nodes: the length of a row. -/
abbrev N : Nat := 2048

/-- The masked logit of one entry: the mask entry `a` times the logistic score of `s` where `a ≠ 0`, the
    fill value −10⁹ (as a binary32 word) where `a = 0`. -/
def logit (a s : EReal) : EReal :=
  Scalar.select (Ideal.cmp .one a (Ideal.ofBits .f32 0x00000000#32)) (a * Ideal.logistic s) (Ideal.ofBits .f32 0xCE6E6B28#32)

/-- The largest masked logit of a row: the fold of `max` from −∞ over the row. -/
def rowMax (a s : Fin N → EReal) : EReal :=
  (Finset.univ : Finset (Fin N)).fold max (Ideal.ofBits .f32 0xFF800000#32) (fun k => logit (a k) (s k))

/-- The shifted exponential of an entry of a row. -/
def rowExp (a s : Fin N → EReal) (k : Fin N) : EReal := Ideal.exp (logit (a k) (s k) - rowMax a s)

/-- The softmax of a row over the non-zero entries of the mask row `a`, at column `c`; zero where the mask is zero. -/
def rowSoftmax (a s : Fin N → EReal) (c : Fin N) : EReal :=
  Scalar.select (Ideal.cmp .one (a c) (Ideal.ofBits .f32 0x00000000#32))
    (Ideal.div (rowExp a s c) (∑ k : Fin N, rowExp a s k)) (Ideal.ofBits .f32 0x00000000#32)

/-- The scores' arguments of row `r` of head `h`: f₁(h, r) + f₂(h, k), from the column f₁ [H, N, 1] and the row f₂ [H, 1, N]. -/
def scoreRow (f1 : (⟨3, ![4, 2048, 1]⟩ : Shape).Idx → EReal) (f2 : (⟨3, ![4, 1, 2048]⟩ : Shape).Idx → EReal)
    (h : Fin 4) (r : Fin N) : Fin N → EReal :=
  fun k => f1 (ix3 h r 0) + f2 (ix3 h 0 k)

/-- The whole result: half the long-range attention plus half the local attention. -/
def attention (loc lng : (⟨2, ![2048, 2048]⟩ : Shape).Idx → EReal)
    (f1 : (⟨3, ![4, 2048, 1]⟩ : Shape).Idx → EReal) (f2 : (⟨3, ![4, 1, 2048]⟩ : Shape).Idx → EReal) :
    (⟨3, ![4, 2048, 2048]⟩ : Shape).Idx → EReal := fun i =>
  Ideal.ofBits .f32 0x3F000000#32 * rowSoftmax (fun k => lng (ix2 (i 1) k)) (scoreRow f1 f2 (i 0) (i 1)) (i 2)
    + Ideal.ofBits .f32 0x3F000000#32 * rowSoftmax (fun k => loc (ix2 (i 1) k)) (scoreRow f1 f2 (i 0) (i 1)) (i 2)

/-! ## The two laws -/

/-- The binary32 word of 1.0 is the real number 1. -/
theorem ofBits_one : Ideal.ofBits .f32 0x3F800000#32 = 1 := by
  simp [Ideal.ofBits, Ideal.ieee]
  rw [← EReal.coe_mul, ← EReal.coe_one]
  congr 1
  norm_num

/-- The binary32 word 0xFF800000 is −∞. -/
theorem ofBits_negInf : Ideal.ofBits .f32 0xFF800000#32 = ⊥ := by
  simp [Ideal.ofBits, Ideal.ieee]

/-- The logistic function written out: 1 / (1 + e^{-x}), the two 1.0 as binary32 words. -/
theorem logistic_spelled (x : EReal) :
    Ideal.div (Ideal.ofBits .f32 0x3F800000#32) (Ideal.ofBits .f32 0x3F800000#32 + Ideal.exp (-x)) = Ideal.logistic x := by
  rw [ofBits_one]; rfl

/-- −∞ is neutral for the maximum. -/
theorem max_negInf (x : EReal) : max (Ideal.ofBits .f32 0xFF800000#32) x = x := by
  rw [ofBits_negInf]; exact max_eq_right bot_le

/-- A sum started from the binary32 zero is the sum. -/
theorem zero_add_sum (x : EReal) : Ideal.ofBits .f32 0x00000000#32 + x = x := by
  rw [Ideal.ofBits_zero_f32, zero_add]

end GraphAttention

end
-- ==== Proof.KernelBlock.lean ====
/-
  One block of the kernel's output, read index by index.

  A grid point holds 256 rows of each mask (a block M of shape [256, 2048]), the 256 entries of the column f₁
  for those rows (a block of shape [1, 256, 1]) and the whole row f₂ of its head (shape [1, 1, 2048]). For a row r of
  the block and a column k the masked logit is the function `GraphAttention.logit` of M(r, k) and f₁(r) + f₂(k); the
  row maximum and the row sum run over all 2048 columns of the block, which are all the columns of the array's row,
  so they are the row functions `rowMax` and Σ `rowExp` of the specification. Hence the block the point leaves is,
  at (0, r, c), half the row softmax of the long-range block plus half that of the local block.
-/
import proofs.«107842_j19713899889134_1_alg».proof.Proof.Gen.KernelIdeal.Value
import proofs.«107842_j19713899889134_1_alg».proof.Proof.GraphAttention
import Idealize.ShloMosaic.PureOps.Ideal.Laws
import Idealize.ShloMosaic.Lib.ValueIdx
import Idealize.ShloMosaic.Lib.Pipeline.Value

noncomputable section

namespace Cert.KernelIdeal.Attention

open Cert.KernelIdeal Cert.KernelIdeal.Gen Cert.KernelIdeal.Value Idealize.ShloMosaic Idealize.ShloMosaic.TcCoe
open Idealize.ShloMosaic.ValueIdx
open GraphAttention (logit rowMax rowExp rowSoftmax)

/-- The scores' arguments of row `r` of a block: f₁(r) + f₂(k), from the block's column and row. -/
def blockScore (c1 : Vec Ideal S1x256x1 .f32) (r2 : Vec Ideal S1x1x2048 .f32) (r : Fin 256) : Fin 2048 → EReal :=
  fun k => c1 (ix3 0 r 0) + r2 (ix3 0 0 k)

/-- The masked logits of a block of 256 rows, as the body computes them: the mask block times the logistic scores where
    the mask is non-zero, the fill value elsewhere. -/
abbrev blockLogits (M : Vec Ideal S256x2048 .f32) (c1 : Vec Ideal S1x256x1 .f32) (r2 : Vec Ideal S1x1x2048 .f32) :
    FVec Ideal S256x2048 .f32 :=
  select (cmpf (F := Ideal) .one M (broadcast S256x2048 (Scalar.ofBits (F := Ideal) .f32 0x00000000#32)))
    (mulf (F := Ideal) M (logistic (F := Ideal) (addf (F := Ideal) (broadcastTo S256x2048 (shapeCast S256x1 c1 shapeCasts_S1x256x1_S256x1) broadcasts_S256x1_S256x2048)
      (broadcastTo S256x2048 (shapeCast S1x2048 r2 shapeCasts_S1x1x2048_S1x2048) broadcasts_S1x2048_S256x2048))))
    (broadcast S256x2048 (Scalar.ofBits (F := Ideal) .f32 0xCE6E6B28#32))

/-- The column f₁, broadcast along the columns, read at (r, k): its entry for row r. -/
theorem column_apply (c1 : Vec Ideal S1x256x1 .f32) (r : Fin 256) (k : Fin 2048) :
    (broadcastTo S256x2048 (shapeCast S256x1 c1 shapeCasts_S1x256x1_S256x1) broadcasts_S256x1_S256x2048) (ix2 r k) = c1 (ix3 0 r 0) := by
  refine (broadcastTo_apply _ _ (ix2 r k) (ix2 r (0 : Fin 1)) (fun a => match a with
    | ⟨0, _⟩ => by show r.val = (if (256 : Nat) = 1 then 0 else r.val); rw [if_neg (by decide)]
    | ⟨1, _⟩ => by show 0 = (if (1 : Nat) = 1 then 0 else k.val); rw [if_pos rfl])).trans ?_
  exact shapeCast_apply _ _ (ix2 r (0 : Fin 1)) (ix3 (0 : Fin 1) r (0 : Fin 1)) (by
    rw [Shape.rowMajor_val_three, Shape.rowMajor_val_two]; show (0 * 256 + r.val) * 1 + 0 = r.val * 1 + 0; omega)

/-- The row f₂, broadcast along the rows, read at (r, k): its entry for column k. -/
theorem row_apply (r2 : Vec Ideal S1x1x2048 .f32) (r : Fin 256) (k : Fin 2048) :
    (broadcastTo S256x2048 (shapeCast S1x2048 r2 shapeCasts_S1x1x2048_S1x2048) broadcasts_S1x2048_S256x2048) (ix2 r k) = r2 (ix3 0 0 k) := by
  refine (broadcastTo_apply _ _ (ix2 r k) (ix2 (0 : Fin 1) k) (fun a => match a with
    | ⟨0, _⟩ => by show 0 = (if (1 : Nat) = 1 then 0 else r.val); rw [if_pos rfl]
    | ⟨1, _⟩ => by show k.val = (if (2048 : Nat) = 1 then 0 else k.val); rw [if_neg (by decide)])).trans ?_
  exact shapeCast_apply _ _ (ix2 (0 : Fin 1) k) (ix3 (0 : Fin 1) (0 : Fin 1) k) (by
    rw [Shape.rowMajor_val_three, Shape.rowMajor_val_two]; show (0 * 1 + 0) * 2048 + k.val = 0 * 2048 + k.val; omega)

/-- The block's masked logits at (r, k). -/
theorem blockLogits_apply (M : Vec Ideal S256x2048 .f32) (c1 : Vec Ideal S1x256x1 .f32) (r2 : Vec Ideal S1x1x2048 .f32)
    (r : Fin 256) (k : Fin 2048) :
    blockLogits M c1 r2 (ix2 r k) = logit (M (ix2 r k)) (blockScore c1 r2 r k) := by
  show Scalar.select (Ideal.cmp .one (M (ix2 r k)) (Ideal.ofBits .f32 0x00000000#32))
      (M (ix2 r k) * Ideal.logistic
        ((broadcastTo S256x2048 (shapeCast S256x1 c1 shapeCasts_S1x256x1_S256x1) broadcasts_S256x1_S256x2048) (ix2 r k)
          + (broadcastTo S256x2048 (shapeCast S1x2048 r2 shapeCasts_S1x1x2048_S1x2048) broadcasts_S1x2048_S256x2048) (ix2 r k)))
      (Ideal.ofBits .f32 0xCE6E6B28#32) = _
  rw [column_apply, row_apply]
  rfl

/-- The index of a block with the column inserted into a row index is (row, column). -/
theorem lift_row (j : S256.Idx) (k : Fin (S256x2048.size 1)) :
    reduces_S256x2048_S256.lift j k = ix2 (j 0) (k : Fin 2048) := by
  funext a
  apply Fin.ext
  match a with
  | ⟨0, _⟩ => rfl
  | ⟨1, _⟩ => rfl

/-- The lane maximum of the block's logits over the columns, at row r, is the row's maximum. -/
theorem blockMax_apply (M : Vec Ideal S256x2048 .f32) (c1 : Vec Ideal S1x256x1 .f32) (r2 : Vec Ideal S1x1x2048 .f32) (r : Fin 256) :
    multiReduction (F := Ideal) .maximumf [1] S256 (blockLogits M c1 r2) 0xFF800000#32 reduces_S256x2048_S256 (.inl rfl) rfl (ix1 r)
      = rowMax (fun k => M (ix2 r k)) (blockScore c1 r2 r) := by
  refine (Ideal.multiReduction_maximumf_single (blockLogits M c1 r2) 0xFF800000#32 reduces_S256x2048_S256 (.inl rfl) rfl (ix1 r)).trans ?_
  unfold rowMax
  refine congrArg (Finset.fold max (Ideal.ofBits .f32 0xFF800000#32) · Finset.univ) (funext fun k => ?_)
  show blockLogits M c1 r2 (reduces_S256x2048_S256.lift (ix1 r) k) = _
  rw [lift_row]
  exact blockLogits_apply M c1 r2 r k

/-- A row vector of the block kept as a column and broadcast along the columns, read at (r, k): its entry for row r. -/
theorem keepdims_apply (v : FVec Ideal S256 .f32) (r : Fin 256) (k : Fin 2048) :
    (broadcastTo S256x2048 (shapeCast S256x1 v shapeCasts_S256_S256x1) broadcasts_S256x1_S256x2048) (ix2 r k) = v (ix1 r) := by
  refine (broadcastTo_apply _ _ (ix2 r k) (ix2 r (0 : Fin 1)) (fun a => match a with
    | ⟨0, _⟩ => by show r.val = (if (256 : Nat) = 1 then 0 else r.val); rw [if_neg (by decide)]
    | ⟨1, _⟩ => by show 0 = (if (1 : Nat) = 1 then 0 else k.val); rw [if_pos rfl])).trans ?_
  exact shapeCast_apply _ _ (ix2 r (0 : Fin 1)) (ix1 r) (by
    rw [Shape.rowMajor_val_one, Shape.rowMajor_val_two]; show r.val = r.val * 1 + 0; omega)

/-- The block's shifted exponentials, as the body computes them: e to the logits minus the row maxima. -/
abbrev blockExp (M : Vec Ideal S256x2048 .f32) (c1 : Vec Ideal S1x256x1 .f32) (r2 : Vec Ideal S1x1x2048 .f32) :
    FVec Ideal S256x2048 .f32 :=
  exp (F := Ideal) (subf (F := Ideal) (blockLogits M c1 r2)
    (broadcastTo S256x2048 (shapeCast S256x1
      (multiReduction (F := Ideal) .maximumf [1] S256 (blockLogits M c1 r2) 0xFF800000#32 reduces_S256x2048_S256 (.inl rfl) rfl)
      shapeCasts_S256_S256x1) broadcasts_S256x1_S256x2048))

/-- The block's shifted exponentials at (r, k). -/
theorem blockExp_apply (M : Vec Ideal S256x2048 .f32) (c1 : Vec Ideal S1x256x1 .f32) (r2 : Vec Ideal S1x1x2048 .f32)
    (r : Fin 256) (k : Fin 2048) :
    blockExp M c1 r2 (ix2 r k) = rowExp (fun k => M (ix2 r k)) (blockScore c1 r2 r) k := by
  show Ideal.exp (blockLogits M c1 r2 (ix2 r k)
      - (broadcastTo S256x2048 (shapeCast S256x1
          (multiReduction (F := Ideal) .maximumf [1] S256 (blockLogits M c1 r2) 0xFF800000#32 reduces_S256x2048_S256 (.inl rfl) rfl)
          shapeCasts_S256_S256x1) broadcasts_S256x1_S256x2048) (ix2 r k)) = _
  rw [keepdims_apply, blockLogits_apply, blockMax_apply]
  rfl

/-- The lane sum of the block's shifted exponentials over the columns, at row r, is the row's sum. -/
theorem blockSum_apply (M : Vec Ideal S256x2048 .f32) (c1 : Vec Ideal S1x256x1 .f32) (r2 : Vec Ideal S1x1x2048 .f32) (r : Fin 256) :
    multiReduction (F := Ideal) .add [1] S256 (blockExp M c1 r2) 0x00000000#32 reduces_S256x2048_S256 (.inl rfl) rfl (ix1 r)
      = ∑ k : Fin 2048, rowExp (fun k => M (ix2 r k)) (blockScore c1 r2 r) k := by
  refine (Ideal.multiReduction_add_single (blockExp M c1 r2) 0x00000000#32 reduces_S256x2048_S256 (.inl rfl) rfl (ix1 r)).trans ?_
  refine Finset.sum_congr rfl fun k _ => ?_
  rw [lift_row]
  exact blockExp_apply M c1 r2 r k

/-- What a grid point leaves in its output block, at block index (0, r, c): half the row softmax of the long-range
    block `Mg` plus half that of the local block `Ml`, both at row r and column c, with the scores of the block's column and row. -/
theorem block_apply (Mg : Vec Ideal S256x2048 .f32) (c1 : Vec Ideal S1x256x1 .f32) (r2 : Vec Ideal S1x1x2048 .f32)
    (Ml : Vec Ideal S256x2048 .f32) (p : Fin 1) (r : Fin 256) (c : Fin 2048) :
    E4 (F := Ideal) Mg c1 r2 Ml (ix3 p r c)
      = Ideal.ofBits .f32 0x3F000000#32 * rowSoftmax (fun k => Mg (ix2 r k)) (blockScore c1 r2 r) c
        + Ideal.ofBits .f32 0x3F000000#32 * rowSoftmax (fun k => Ml (ix2 r k)) (blockScore c1 r2 r) c := by
  have i0 : ix4_0 (ix3 p r c) = ix2 r c := funext fun a => by match a with | ⟨0, _⟩ => rfl | ⟨1, _⟩ => rfl
  have i1 : ix4_1 (ix3 p r c) = ix2 r c := funext fun a => by match a with | ⟨0, _⟩ => rfl | ⟨1, _⟩ => rfl
  have i2 : ix4_2 (ix3 p r c) = ix2 r c := funext fun a => by match a with | ⟨0, _⟩ => rfl | ⟨1, _⟩ => rfl
  have i3 : ix4_3 (ix3 p r c) = ix3 (0 : Fin 1) r (0 : Fin 1) := funext fun a => by match a with | ⟨0, _⟩ => rfl | ⟨1, _⟩ => rfl | ⟨2, _⟩ => rfl
  have i4 : ix4_4 (ix3 p r c) = ix3 (0 : Fin 1) (0 : Fin 1) c := funext fun a => by match a with | ⟨0, _⟩ => rfl | ⟨1, _⟩ => rfl | ⟨2, _⟩ => rfl
  have i5 : ix4_5 (ix3 p r c) = ix1 r := funext fun a => by match a with | ⟨0, _⟩ => rfl
  have i6 : ix4_6 (ix3 p r c) = ix1 r := funext fun a => by match a with | ⟨0, _⟩ => rfl
  have i7 : ix4_7 (ix3 p r c) = ix2 r c := funext fun a => by match a with | ⟨0, _⟩ => rfl | ⟨1, _⟩ => rfl
  have i8 : ix4_8 (ix3 p r c) = ix2 r c := funext fun a => by match a with | ⟨0, _⟩ => rfl | ⟨1, _⟩ => rfl
  have i9 : ix4_9 (ix3 p r c) = ix2 r c := funext fun a => by match a with | ⟨0, _⟩ => rfl | ⟨1, _⟩ => rfl
  have i10 : ix4_10 (ix3 p r c) = ix3 (0 : Fin 1) r (0 : Fin 1) := funext fun a => by match a with | ⟨0, _⟩ => rfl | ⟨1, _⟩ => rfl | ⟨2, _⟩ => rfl
  have i11 : ix4_11 (ix3 p r c) = ix3 (0 : Fin 1) (0 : Fin 1) c := funext fun a => by match a with | ⟨0, _⟩ => rfl | ⟨1, _⟩ => rfl | ⟨2, _⟩ => rfl
  have i12 : ix4_12 (ix3 p r c) = ix1 r := funext fun a => by match a with | ⟨0, _⟩ => rfl
  have i13 : ix4_13 (ix3 p r c) = ix1 r := funext fun a => by match a with | ⟨0, _⟩ => rfl
  show Ideal.ofBits .f32 0x3F000000#32 * Scalar.select (Ideal.cmp .one (Mg (ix4_0 (ix3 p r c))) (Ideal.ofBits .f32 0x00000000#32))
        (Ideal.div (Ideal.exp (Scalar.select (Ideal.cmp .one (Mg (ix4_1 (ix3 p r c))) (Ideal.ofBits .f32 0x00000000#32))
              (Mg (ix4_2 (ix3 p r c)) * Ideal.logistic (c1 (ix4_3 (ix3 p r c)) + r2 (ix4_4 (ix3 p r c)))) (Ideal.ofBits .f32 0xCE6E6B28#32)
            - (multiReduction (F := Ideal) .maximumf [1] S256 (blockLogits Mg c1 r2) 0xFF800000#32 reduces_S256x2048_S256 (.inl rfl) rfl) (ix4_5 (ix3 p r c))))
          ((multiReduction (F := Ideal) .add [1] S256 (blockExp Mg c1 r2) 0x00000000#32 reduces_S256x2048_S256 (.inl rfl) rfl) (ix4_6 (ix3 p r c))))
        (Ideal.ofBits .f32 0x00000000#32)
      + Ideal.ofBits .f32 0x3F000000#32 * Scalar.select (Ideal.cmp .one (Ml (ix4_7 (ix3 p r c))) (Ideal.ofBits .f32 0x00000000#32))
        (Ideal.div (Ideal.exp (Scalar.select (Ideal.cmp .one (Ml (ix4_8 (ix3 p r c))) (Ideal.ofBits .f32 0x00000000#32))
              (Ml (ix4_9 (ix3 p r c)) * Ideal.logistic (c1 (ix4_10 (ix3 p r c)) + r2 (ix4_11 (ix3 p r c)))) (Ideal.ofBits .f32 0xCE6E6B28#32)
            - (multiReduction (F := Ideal) .maximumf [1] S256 (blockLogits Ml c1 r2) 0xFF800000#32 reduces_S256x2048_S256 (.inl rfl) rfl) (ix4_12 (ix3 p r c))))
          ((multiReduction (F := Ideal) .add [1] S256 (blockExp Ml c1 r2) 0x00000000#32 reduces_S256x2048_S256 (.inl rfl) rfl) (ix4_13 (ix3 p r c))))
        (Ideal.ofBits .f32 0x00000000#32) = _
  rw [i0, i1, i2, i3, i4, i5, i6, i7, i8, i9, i10, i11, i12, i13,
    blockMax_apply Mg c1 r2 r, blockSum_apply Mg c1 r2 r, blockMax_apply Ml c1 r2 r, blockSum_apply Ml c1 r2 r]
  rfl

end Cert.KernelIdeal.Attention

end
-- ==== Proof.KernelArray.lean ====
/-
  From the blocks to the whole array.

  The grid has 8 × 4 points; point t = (b, h) holds rows 256·b … 256·b + 255 of both masks, the entries of the column
  f₁ of head h for those rows, the row f₂ of head h, and writes back rows 256·b … 256·b + 255 of head h of the result.
  Since a block holds whole rows, the block a point writes back is the restriction of ONE function of the arrays,
  `GraphAttention.attention` of the two masks and of f₁ and f₂ as the region finds them, to the point's rows; the 32
  blocks cover the result array; hence the array ends as that function.
-/
import proofs.«107842_j19713899889134_1_alg».proof.Proof.KernelBlock
import Idealize.ShloMosaic.Lib.Pipeline.Value

noncomputable section

namespace Cert.KernelIdeal.Attention

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open GraphAttention (rowSoftmax scoreRow attention)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices of the five windows at a grid point, against the output's (head, row block, 0): the masks' blocks
    are the output's row block, all columns; f₁'s block is (head, row block, 0); f₂'s is (head, 0, 0). -/
theorem idx_facts : ∀ t : Fin cfg0.N,
    win0_0.index t (0 : Fin 2) = win0_4.index t (1 : Fin 3) ∧ win0_0.index t (1 : Fin 2) = 0
    ∧ win0_1.index t (0 : Fin 2) = win0_4.index t (1 : Fin 3) ∧ win0_1.index t (1 : Fin 2) = 0
    ∧ win0_2.index t (0 : Fin 3) = win0_4.index t (0 : Fin 3) ∧ win0_2.index t (1 : Fin 3) = win0_4.index t (1 : Fin 3)
    ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (2 : Fin 3) = 0 ∧ win0_4.index t (0 : Fin 3) ≤ 3 ∧ win0_4.index t (1 : Fin 3) ≤ 7 :=
  (by decide +kernel : ∀ t : Fin grid0.N, _)

/-- Every (head, row block) is some grid point's. -/
theorem idx_onto : ∀ (q0 : Fin 4) (q1 : Fin 8), ∃ t : Fin cfg0.N, win0_4.index t = ![q0.val, q1.val, 0] :=
  (by decide +kernel : ∀ (q0 : Fin 4) (q1 : Fin 8), ∃ t : Fin grid0.N, win0_4.index t = ![q0.val, q1.val, 0])

/-! ## The arrays as the region finds them -/

/-- The local mask. -/
abbrev locArr (c : Dev nD) : S2048x2048.Idx → EReal := V m c main_arg0
/-- The long-range mask. -/
abbrev lngArr (c : Dev nD) : S2048x2048.Idx → EReal := V m c main_arg1
/-- The projections f₁, a column per head. -/
abbrev colArr (c : Dev nD) : S4x2048x1.Idx → EReal := V m c main_v8
/-- The projections f₂, a row per head. -/
abbrev rowArr (c : Dev nD) : S4x1x2048.Idx → EReal := V m c main_v9

/-- What the result array ends as. -/
abbrev result (c : Dev nD) : S4x2048x2048.Idx → EReal :=
  attention (locArr m c) (lngArr m c) (colArr m c) (rowArr m c)

/-! ## Each input block is rows of its array -/

/-- The local mask's block at point t: rows 256·b … of the array. -/
theorem locBlock_apply (c : Dev nD) (t : Fin cfg0.N) (r : Fin 256) (k : Fin 2048) (q : Fin 2048)
    (hq : q.val = win0_4.index t (1 : Fin 3) * 256 + r.val) :
    (iblk m c 0 t : Vec Ideal S256x2048 .f32) (ix2 r k) = locArr m c (ix2 q k) := by
  obtain ⟨e00, e01, e10, e11, e20, e21, e22, e30, e31, e32, e42, b0, b1⟩ := idx_facts t
  unfold iblk
  rw [View.read_apply]
  show V m c main_arg0 _ = V m c main_arg0 _
  congr 1
  funext a
  apply Fin.ext
  match a with
  | ⟨0, _⟩ => show win0_0.index t (0 : Fin 2) * 256 + 1 * r.val = q.val; omega
  | ⟨1, _⟩ => show win0_0.index t (1 : Fin 2) * 2048 + 1 * k.val = k.val; omega

/-- The long-range mask's block at point t: the same rows of its array. -/
theorem lngBlock_apply (c : Dev nD) (t : Fin cfg0.N) (r : Fin 256) (k : Fin 2048) (q : Fin 2048)
    (hq : q.val = win0_4.index t (1 : Fin 3) * 256 + r.val) :
    (iblk m c 1 t : Vec Ideal S256x2048 .f32) (ix2 r k) = lngArr m c (ix2 q k) := by
  obtain ⟨e00, e01, e10, e11, e20, e21, e22, e30, e31, e32, e42, b0, b1⟩ := idx_facts t
  unfold iblk
  rw [View.read_apply]
  show V m c main_arg1 _ = V m c main_arg1 _
  congr 1
  funext a
  apply Fin.ext
  match a with
  | ⟨0, _⟩ => show win0_1.index t (0 : Fin 2) * 256 + 1 * r.val = q.val; omega
  | ⟨1, _⟩ => show win0_1.index t (1 : Fin 2) * 2048 + 1 * k.val = k.val; omega

/-- f₁'s block at point t: the entries of head h for the point's rows. -/
theorem colBlock_apply (c : Dev nD) (t : Fin cfg0.N) (r : Fin 256) (h : Fin 4) (q : Fin 2048)
    (hh : h.val = win0_4.index t (0 : Fin 3)) (hq : q.val = win0_4.index t (1 : Fin 3) * 256 + r.val) :
    (iblk m c 2 t : Vec Ideal S1x256x1 .f32) (ix3 (0 : Fin 1) r (0 : Fin 1)) = colArr m c (ix3 h q (0 : Fin 1)) := by
  obtain ⟨e00, e01, e10, e11, e20, e21, e22, e30, e31, e32, e42, b0, b1⟩ := idx_facts t
  unfold iblk
  rw [View.read_apply]
  show V m c main_v8 _ = V m c main_v8 _
  congr 1
  funext a
  apply Fin.ext
  match a with
  | ⟨0, _⟩ => show win0_2.index t (0 : Fin 3) * 1 + 1 * 0 = h.val; omega
  | ⟨1, _⟩ => show win0_2.index t (1 : Fin 3) * 256 + 1 * r.val = q.val; omega
  | ⟨2, _⟩ => show win0_2.index t (2 : Fin 3) * 1 + 1 * 0 = 0; omega

/-- f₂'s block at point t: the row of head h. -/
theorem rowBlock_apply (c : Dev nD) (t : Fin cfg0.N) (k : Fin 2048) (h : Fin 4)
    (hh : h.val = win0_4.index t (0 : Fin 3)) :
    (iblk m c 3 t : Vec Ideal S1x1x2048 .f32) (ix3 (0 : Fin 1) (0 : Fin 1) k) = rowArr m c (ix3 h (0 : Fin 1) k) := by
  obtain ⟨e00, e01, e10, e11, e20, e21, e22, e30, e31, e32, e42, b0, b1⟩ := idx_facts t
  unfold iblk
  rw [View.read_apply]
  show V m c main_v9 _ = V m c main_v9 _
  congr 1
  funext a
  apply Fin.ext
  match a with
  | ⟨0, _⟩ => show win0_3.index t (0 : Fin 3) * 1 + 1 * 0 = h.val; omega
  | ⟨1, _⟩ => show win0_3.index t (1 : Fin 3) * 1 + 1 * 0 = 0; omega
  | ⟨2, _⟩ => show win0_3.index t (2 : Fin 3) * 2048 + 1 * k.val = k.val; omega

/-! ## What a point writes back, the cover, and the array after the run -/

/-- What point t writes back is the restriction of `result` to the point's block: rows 256·b … 256·b + 255 of head h. -/
theorem flushed_eq (c : Dev nD) (t : Fin cfg0.N) :
    (dats m 0 c).flushed 4 t = ((cfg0.win 4).blk t).view.read (Elt Ideal) (result m c) := by
  rw [Value.flushed4]
  refine funext fun (y : S1x256x2048.Idx) => ?_
  obtain ⟨p, r, k, rfl⟩ : ∃ (p : Fin 1) (r : Fin 256) (k : Fin 2048), y = ix3 p r k := ⟨y 0, y 1, y 2, eq_ix3 y⟩
  show out0_4 (iblk m c 0 t) (iblk m c 1 t) (iblk m c 2 t) (iblk m c 3 t) (ix3 p r k)
    = result m c (((cfg0.win 4).blk t).view.emb (ix3 p r k))
  unfold out0_4
  rw [canon4_eq]
  simp only [View.ld_unit_zero (S := S256x2048) hz2, View.ld_unit_zero (S := S1x256x1) hz3, View.ld_unit_zero (S := S1x1x2048) hz3]
  rw [block_apply]
  obtain ⟨e00, e01, e10, e11, e20, e21, e22, e30, e31, e32, e42, b0, b1⟩ := idx_facts t
  have hp : p.val = 0 := by have := p.isLt; omega
  have hr : r.val < 256 := r.isLt
  obtain ⟨h, hh⟩ : ∃ h : Fin 4, h.val = win0_4.index t (0 : Fin 3) := ⟨⟨win0_4.index t (0 : Fin 3), by omega⟩, rfl⟩
  obtain ⟨q, hq⟩ : ∃ q : Fin 2048, q.val = win0_4.index t (1 : Fin 3) * 256 + r.val :=
    ⟨⟨win0_4.index t (1 : Fin 3) * 256 + r.val, by omega⟩, rfl⟩
  have hi : ((cfg0.win 4).blk t).view.emb (ix3 p r k) = ix3 h q k := by
    funext a
    apply Fin.ext
    match a with
    | ⟨0, _⟩ => show win0_4.index t (0 : Fin 3) * 1 + 1 * p.val = h.val; omega
    | ⟨1, _⟩ => show win0_4.index t (1 : Fin 3) * 256 + 1 * r.val = q.val; omega
    | ⟨2, _⟩ => show win0_4.index t (2 : Fin 3) * 2048 + 1 * k.val = k.val; omega
  rw [hi]
  have eg : (fun k' : Fin 2048 => (iblk m c 1 t : Vec Ideal S256x2048 .f32) (ix2 r k')) = fun k' => lngArr m c (ix2 q k') :=
    funext fun k' => lngBlock_apply m c t r k' q hq
  have el : (fun k' : Fin 2048 => (iblk m c 0 t : Vec Ideal S256x2048 .f32) (ix2 r k')) = fun k' => locArr m c (ix2 q k') :=
    funext fun k' => locBlock_apply m c t r k' q hq
  have es : blockScore (iblk m c 2 t) (iblk m c 3 t) r = scoreRow (colArr m c) (rowArr m c) h q := funext fun k' =>
    congrArg₂ (fun a b : EReal => a + b) (colBlock_apply m c t r h q hh hq) (rowBlock_apply m c t k' h hh)
  show Ideal.ofBits .f32 0x3F000000#32 * rowSoftmax (fun k' : Fin 2048 => (iblk m c 1 t : Vec Ideal S256x2048 .f32) (ix2 r k')) (blockScore (iblk m c 2 t) (iblk m c 3 t) r) k
      + Ideal.ofBits .f32 0x3F000000#32 * rowSoftmax (fun k' : Fin 2048 => (iblk m c 0 t : Vec Ideal S256x2048 .f32) (ix2 r k')) (blockScore (iblk m c 2 t) (iblk m c 3 t) r) k
    = Ideal.ofBits .f32 0x3F000000#32 * rowSoftmax (fun k' => lngArr m c (ix2 q k')) (scoreRow (colArr m c) (rowArr m c) h q) k
      + Ideal.ofBits .f32 0x3F000000#32 * rowSoftmax (fun k' => locArr m c (ix2 q k')) (scoreRow (colArr m c) (rowArr m c) h q) k
  rw [eg, el, es]

/-- An index of the result array is in point t's block iff each coordinate is in the block's range on its axis. -/
theorem mem_blk (t : Fin cfg0.N) (i : S4x2048x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v10).slice (win0_4.rect t)).set ↔ _
  rw [View.set_slice_whole, Rect.mem_set_unit]
  exact Iff.rfl

/-- The blocks cover the result array: (h, r, c) lies in the block of the point with head h and row block r / 256. -/
theorem covered (i : S4x2048x2048.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- The result array after the run. -/
theorem final (c : Dev nD) : (dats m 0 c).arrAt 4 cfg0.N = result m c :=
  (dats m 0 c).arrAt_eq_of_cover 4 (result m c) (fun t _ => flushed_eq m c t) covered

/-- The kernel's run: the result array ends as `result`, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Attention

end
-- ==== Proof.ReferenceAttention.lean ====
/-
  The reference program read as the sparse graph attention `GraphAttention.attention`.

  The reference computes, for a head h, a row r and a column c,
      ½ · A_long(h, r, c) + ½ · A_local(h, r, c),
  each A the softmax of the row r of masked logits restricted to the non-zero entries of its mask. This module reads
  the reference's operations one stage at a time, for each of the two masks in the same order:
    the logistic score σ(h, r, c) of f₁(h, r) + f₂(h, c), written out as 1 / (1 + e^{-x});
    the masked logit ℓ(c): mask · σ where the mask is non-zero, the fill value elsewhere;
    the row maximum m = max_k ℓ(k), a fold of max over the last axis started from −∞ (and once more max(−∞, ·));
    the shifted exponential e^{ℓ(c) − m}; its row sum, started from 0; and the quotient, kept where the mask is non-zero.
  The projections f₁ (a column, [4, 2048, 1]) and f₂ (a row, [4, 1, 2048]) are left as the reference computes them.
-/
import proofs.«107842_j19713899889134_1_alg».proof.Proof.Gen.ReferenceIdeal.Read
import proofs.«107842_j19713899889134_1_alg».proof.Proof.GraphAttention
import Idealize.ShloMosaic.PureOps.Ideal.Laws
import Idealize.ShloMosaic.PureOps.Reduce
import Idealize.ShloMosaic.Lib.ValueIdx

noncomputable section

namespace Cert.ReferenceIdeal.Attention

open Cert.ReferenceIdeal Cert.ReferenceIdeal.Gen Cert.ReferenceIdeal.Read Idealize.ShloMosaic Idealize.ShloMosaic.TcCoe
open Idealize.ShloMosaic.ValueIdx GraphAttention

/-! ## Indices

Each broadcast reads its operand at an index made of the coordinates of the result's index; the equations below name
those indices by their coordinates. -/

/-- The column f₁ is read at (h, r, 0). -/
theorem idx_column (i : S4x2048x2048.Idx) : idx_main_v10 i = ix3 (i 0) (i 1) 0 :=
  funext fun a => Fin.ext (by match a with | ⟨0, _⟩ => rfl | ⟨1, _⟩ => rfl | ⟨2, _⟩ => rfl)

/-- The row f₂ is read at (h, 0, c). -/
theorem idx_row (i : S4x2048x2048.Idx) : idx_main_v11 i = ix3 (i 0) 0 (i 2) :=
  funext fun a => Fin.ext (by match a with | ⟨0, _⟩ => rfl | ⟨1, _⟩ => rfl | ⟨2, _⟩ => rfl)

/-- The local mask's predicate is read at (r, c). -/
theorem idx_localPred (i : S4x2048x2048.Idx) : idx_main_call0_v1 i = ix2 (i 1) (i 2) :=
  funext fun a => Fin.ext (by match a with | ⟨0, _⟩ => rfl | ⟨1, _⟩ => rfl)

/-- The local mask's predicate, broadcast a second time for the final selection, is read at (r, c). -/
theorem idx_localPred' (i : S4x2048x2048.Idx) : idx_main_call1_v1 i = ix2 (i 1) (i 2) :=
  funext fun a => Fin.ext (by match a with | ⟨0, _⟩ => rfl | ⟨1, _⟩ => rfl)

/-- The local mask, broadcast over the heads in two steps, is read at (r, c). -/
theorem idx_localMask (i : S4x2048x2048.Idx) : idx_main_v21 (idx_main_v22 i) = ix2 (i 1) (i 2) :=
  funext fun a => Fin.ext (by match a with | ⟨0, _⟩ => rfl | ⟨1, _⟩ => rfl)

/-- The long-range mask's predicate is read at (r, c). -/
theorem idx_longPred (i : S4x2048x2048.Idx) : idx_main_call2_v1 i = ix2 (i 1) (i 2) :=
  funext fun a => Fin.ext (by match a with | ⟨0, _⟩ => rfl | ⟨1, _⟩ => rfl)

/-- The long-range mask's predicate, broadcast a second time for the final selection, is read at (r, c). -/
theorem idx_longPred' (i : S4x2048x2048.Idx) : idx_main_call3_v1 i = ix2 (i 1) (i 2) :=
  funext fun a => Fin.ext (by match a with | ⟨0, _⟩ => rfl | ⟨1, _⟩ => rfl)

/-- The long-range mask, broadcast over the heads in two steps, is read at (r, c). -/
theorem idx_longMask (i : S4x2048x2048.Idx) : idx_main_v39 (idx_main_v40 i) = ix2 (i 1) (i 2) :=
  funext fun a => Fin.ext (by match a with | ⟨0, _⟩ => rfl | ⟨1, _⟩ => rfl)

/-- The last axis of [4, 2048, 2048] reduces to [4, 2048]. -/
theorem rowReduces : S4x2048x2048.Reduces [2] S4x2048 := by decide

/-- The index (h, r) with the coordinate k put back on the reduced axis is (h, r, k). -/
theorem lift_row (j : S4x2048.Idx) (k : Fin N) : rowReduces.lift j k = ix3 (j 0) (j 1) k :=
  funext fun a => Fin.ext (by match a with | ⟨0, _⟩ => rfl | ⟨1, _⟩ => rfl | ⟨2, _⟩ => rfl)

/-! ## The scores -/

/-- The scores: the logistic function of f₁(h, r) + f₂(h, c), which the reference writes as 1 / (1 + e^{-x}). -/
theorem score_apply (x2 : (⟨S4x2048x64, .f32⟩ : BufTy).Contents (Elt Ideal)) (x3 : (⟨S4x2x64x1, .f32⟩ : BufTy).Contents (Elt Ideal))
    (i : S4x2048x2048.Idx) :
    val_main_v18 (F := Ideal) x2 x3 i
      = Ideal.logistic (scoreRow (val_main_v8 (F := Ideal) x2 x3) (val_main_v9 (F := Ideal) x2 x3) (i 0) (i 1) (i 2)) := by
  rw [val_main_v18_apply, val_main_v17_apply, val_main_cst_0_apply, val_main_v16_apply, val_main_v15_apply,
    val_main_cst_apply, val_main_v14_apply, val_main_v13_apply, val_main_v12_apply, val_main_v10_apply,
    val_main_v11_apply, idx_column, idx_row]
  exact logistic_spelled _

/-! ## The local mask -/

/-- The local masked logit at (h, r, c). -/
theorem localLogit_apply (x0 : (⟨S2048x2048, .f32⟩ : BufTy).Contents (Elt Ideal)) (x2 : (⟨S4x2048x64, .f32⟩ : BufTy).Contents (Elt Ideal))
    (x3 : (⟨S4x2x64x1, .f32⟩ : BufTy).Contents (Elt Ideal)) (i : S4x2048x2048.Idx) :
    val_main_v24 (F := Ideal) x0 x2 x3 i
      = logit (x0 (ix2 (i 1) (i 2)))
          (scoreRow (val_main_v8 (F := Ideal) x2 x3) (val_main_v9 (F := Ideal) x2 x3) (i 0) (i 1) (i 2)) := by
  rw [val_main_v24_apply, val_main_call0_v1_apply, val_main_v20_apply, val_main_v19_apply, val_main_cst_1_apply,
    val_main_v23_apply, val_main_v22_apply, val_main_v21_apply, val_main_call0_v2_apply, val_main_call0_v0_apply,
    val_main_cst_2_apply, score_apply, idx_localPred, idx_localMask]
  rfl

/-- The largest local masked logit of the row (h, r): the fold of max over the last axis, and max(−∞, ·) once more. -/
theorem localRowMax_apply (x0 : (⟨S2048x2048, .f32⟩ : BufTy).Contents (Elt Ideal)) (x2 : (⟨S4x2048x64, .f32⟩ : BufTy).Contents (Elt Ideal))
    (x3 : (⟨S4x2x64x1, .f32⟩ : BufTy).Contents (Elt Ideal)) (j : S4x2048.Idx) :
    val_main_v27 (F := Ideal) x0 x2 x3 j
      = rowMax (fun k => x0 (ix2 (j 1) k))
          (scoreRow (val_main_v8 (F := Ideal) x2 x3) (val_main_v9 (F := Ideal) x2 x3) (j 0) (j 1)) := by
  rw [val_main_v27_apply, val_main_v26_apply, val_main_cst_4_apply]
  show max (Ideal.ofBits .f32 0xFF800000#32) (val_main_v25 (F := Ideal) x0 x2 x3 j) = _
  rw [max_negInf]
  unfold val_main_v25
  rw [Host.reduce_eq_fold_single FloatOps.maximumf _ _ reducesTo_S4x2048x2048_S4x2048_d2 rowReduces h_S_ j]
  exact Finset.fold_congr fun (k : Fin N) _ =>
    (congrArg (val_main_v24 (F := Ideal) x0 x2 x3) (lift_row j k)).trans (localLogit_apply x0 x2 x3 (ix3 (j 0) (j 1) k))

/-- The shifted exponential of the local masked logit at (h, r, c). -/
theorem localExp_apply (x0 : (⟨S2048x2048, .f32⟩ : BufTy).Contents (Elt Ideal)) (x2 : (⟨S4x2048x64, .f32⟩ : BufTy).Contents (Elt Ideal))
    (x3 : (⟨S4x2x64x1, .f32⟩ : BufTy).Contents (Elt Ideal)) (i : S4x2048x2048.Idx) :
    val_main_v31 (F := Ideal) x0 x2 x3 i
      = rowExp (fun k => x0 (ix2 (i 1) k))
          (scoreRow (val_main_v8 (F := Ideal) x2 x3) (val_main_v9 (F := Ideal) x2 x3) (i 0) (i 1)) (i 2) := by
  rw [val_main_v31_apply, val_main_v30_apply, val_main_v29_apply, val_main_v28_apply, localLogit_apply, localRowMax_apply]
  rfl

/-- The sum of the shifted exponentials over the row (h, r), started from 0. -/
theorem localSum_apply (x0 : (⟨S2048x2048, .f32⟩ : BufTy).Contents (Elt Ideal)) (x2 : (⟨S4x2048x64, .f32⟩ : BufTy).Contents (Elt Ideal))
    (x3 : (⟨S4x2x64x1, .f32⟩ : BufTy).Contents (Elt Ideal)) (j : S4x2048.Idx) :
    val_main_v32 (F := Ideal) x0 x2 x3 j
      = ∑ k : Fin N, rowExp (fun k => x0 (ix2 (j 1) k))
          (scoreRow (val_main_v8 (F := Ideal) x2 x3) (val_main_v9 (F := Ideal) x2 x3) (j 0) (j 1)) k := by
  rw [val_main_v32_apply, val_main_cst_5_apply]
  show Ideal.ofBits .f32 0x00000000#32 + _ = _
  rw [zero_add_sum]
  exact Finset.sum_congr rfl fun (k : Fin N) _ => localExp_apply x0 x2 x3 (idx_main_v32 j k)

/-- The local attention at (h, r, c): the quotient where the mask is non-zero, zero elsewhere. -/
theorem localSoftmax_apply (x0 : (⟨S2048x2048, .f32⟩ : BufTy).Contents (Elt Ideal)) (x2 : (⟨S4x2048x64, .f32⟩ : BufTy).Contents (Elt Ideal))
    (x3 : (⟨S4x2x64x1, .f32⟩ : BufTy).Contents (Elt Ideal)) (i : S4x2048x2048.Idx) :
    val_main_v36 (F := Ideal) x0 x2 x3 i
      = rowSoftmax (fun k => x0 (ix2 (i 1) k))
          (scoreRow (val_main_v8 (F := Ideal) x2 x3) (val_main_v9 (F := Ideal) x2 x3) (i 0) (i 1)) (i 2) := by
  rw [val_main_v36_apply, val_main_call1_v1_apply, val_main_v20_apply, val_main_v19_apply, val_main_cst_1_apply,
    val_main_v35_apply, val_main_v34_apply, val_main_v33_apply, val_main_call1_v2_apply, val_main_call1_v0_apply,
    val_main_cst_6_apply, localExp_apply, localSum_apply, idx_localPred']
  rfl

/-! ## The long-range mask

The same six readings, of the stages the reference computes from its second mask. -/

/-- The long-range masked logit at (h, r, c). -/
theorem longLogit_apply (x1 : (⟨S2048x2048, .f32⟩ : BufTy).Contents (Elt Ideal)) (x2 : (⟨S4x2048x64, .f32⟩ : BufTy).Contents (Elt Ideal))
    (x3 : (⟨S4x2x64x1, .f32⟩ : BufTy).Contents (Elt Ideal)) (i : S4x2048x2048.Idx) :
    val_main_v42 (F := Ideal) x1 x2 x3 i
      = logit (x1 (ix2 (i 1) (i 2)))
          (scoreRow (val_main_v8 (F := Ideal) x2 x3) (val_main_v9 (F := Ideal) x2 x3) (i 0) (i 1) (i 2)) := by
  rw [val_main_v42_apply, val_main_call2_v1_apply, val_main_v38_apply, val_main_v37_apply, val_main_cst_7_apply,
    val_main_v41_apply, val_main_v40_apply, val_main_v39_apply, val_main_call2_v2_apply, val_main_call2_v0_apply,
    val_main_cst_8_apply, score_apply, idx_longPred, idx_longMask]
  rfl

/-- The largest long-range masked logit of the row (h, r). -/
theorem longRowMax_apply (x1 : (⟨S2048x2048, .f32⟩ : BufTy).Contents (Elt Ideal)) (x2 : (⟨S4x2048x64, .f32⟩ : BufTy).Contents (Elt Ideal))
    (x3 : (⟨S4x2x64x1, .f32⟩ : BufTy).Contents (Elt Ideal)) (j : S4x2048.Idx) :
    val_main_v45 (F := Ideal) x1 x2 x3 j
      = rowMax (fun k => x1 (ix2 (j 1) k))
          (scoreRow (val_main_v8 (F := Ideal) x2 x3) (val_main_v9 (F := Ideal) x2 x3) (j 0) (j 1)) := by
  rw [val_main_v45_apply, val_main_v44_apply, val_main_cst_10_apply]
  show max (Ideal.ofBits .f32 0xFF800000#32) (val_main_v43 (F := Ideal) x1 x2 x3 j) = _
  rw [max_negInf]
  unfold val_main_v43
  rw [Host.reduce_eq_fold_single FloatOps.maximumf _ _ reducesTo_S4x2048x2048_S4x2048_d2 rowReduces h_S_ j]
  exact Finset.fold_congr fun (k : Fin N) _ =>
    (congrArg (val_main_v42 (F := Ideal) x1 x2 x3) (lift_row j k)).trans (longLogit_apply x1 x2 x3 (ix3 (j 0) (j 1) k))

/-- The shifted exponential of the long-range masked logit at (h, r, c). -/
theorem longExp_apply (x1 : (⟨S2048x2048, .f32⟩ : BufTy).Contents (Elt Ideal)) (x2 : (⟨S4x2048x64, .f32⟩ : BufTy).Contents (Elt Ideal))
    (x3 : (⟨S4x2x64x1, .f32⟩ : BufTy).Contents (Elt Ideal)) (i : S4x2048x2048.Idx) :
    val_main_v49 (F := Ideal) x1 x2 x3 i
      = rowExp (fun k => x1 (ix2 (i 1) k))
          (scoreRow (val_main_v8 (F := Ideal) x2 x3) (val_main_v9 (F := Ideal) x2 x3) (i 0) (i 1)) (i 2) := by
  rw [val_main_v49_apply, val_main_v48_apply, val_main_v47_apply, val_main_v46_apply, longLogit_apply, longRowMax_apply]
  rfl

/-- The sum of the shifted exponentials over the row (h, r), started from 0. -/
theorem longSum_apply (x1 : (⟨S2048x2048, .f32⟩ : BufTy).Contents (Elt Ideal)) (x2 : (⟨S4x2048x64, .f32⟩ : BufTy).Contents (Elt Ideal))
    (x3 : (⟨S4x2x64x1, .f32⟩ : BufTy).Contents (Elt Ideal)) (j : S4x2048.Idx) :
    val_main_v50 (F := Ideal) x1 x2 x3 j
      = ∑ k : Fin N, rowExp (fun k => x1 (ix2 (j 1) k))
          (scoreRow (val_main_v8 (F := Ideal) x2 x3) (val_main_v9 (F := Ideal) x2 x3) (j 0) (j 1)) k := by
  rw [val_main_v50_apply, val_main_cst_11_apply]
  show Ideal.ofBits .f32 0x00000000#32 + _ = _
  rw [zero_add_sum]
  exact Finset.sum_congr rfl fun (k : Fin N) _ => longExp_apply x1 x2 x3 (idx_main_v50 j k)

/-- The long-range attention at (h, r, c): the quotient where the mask is non-zero, zero elsewhere. -/
theorem longSoftmax_apply (x1 : (⟨S2048x2048, .f32⟩ : BufTy).Contents (Elt Ideal)) (x2 : (⟨S4x2048x64, .f32⟩ : BufTy).Contents (Elt Ideal))
    (x3 : (⟨S4x2x64x1, .f32⟩ : BufTy).Contents (Elt Ideal)) (i : S4x2048x2048.Idx) :
    val_main_v54 (F := Ideal) x1 x2 x3 i
      = rowSoftmax (fun k => x1 (ix2 (i 1) k))
          (scoreRow (val_main_v8 (F := Ideal) x2 x3) (val_main_v9 (F := Ideal) x2 x3) (i 0) (i 1)) (i 2) := by
  rw [val_main_v54_apply, val_main_call3_v1_apply, val_main_v38_apply, val_main_v37_apply, val_main_cst_7_apply,
    val_main_v53_apply, val_main_v52_apply, val_main_v51_apply, val_main_call3_v2_apply, val_main_call3_v0_apply,
    val_main_cst_12_apply, longExp_apply, longSum_apply, idx_longPred']
  rfl

/-! ## The whole result -/

/-- The reference's result is the sparse graph attention of its two masks and its two projections: half the long-range
    attention plus half the local attention, at every (h, r, c). -/
theorem reference_eq (x0 x1 : (⟨S2048x2048, .f32⟩ : BufTy).Contents (Elt Ideal)) (x2 : (⟨S4x2048x64, .f32⟩ : BufTy).Contents (Elt Ideal))
    (x3 : (⟨S4x2x64x1, .f32⟩ : BufTy).Contents (Elt Ideal)) :
    val_main_v59 (F := Ideal) x0 x1 x2 x3
      = GraphAttention.attention x0 x1 (val_main_v8 (F := Ideal) x2 x3) (val_main_v9 (F := Ideal) x2 x3) := by
  funext i
  rw [val_main_v59_apply, val_main_v56_apply, val_main_v55_apply, val_main_cst_13_apply, val_main_v58_apply,
    val_main_v57_apply, val_main_cst_14_apply, longSoftmax_apply, localSoftmax_apply]
  rfl

end Cert.ReferenceIdeal.Attention

end
-- ==== Proof.ScorePrefix.lean ====
/-
  The two projections as the kernel program's region finds them.

  Before its one region the kernel program computes, by the same ten host operations as the reference's first ten
  (a slice of the weights, a reshape, the contraction with the node features, a reshape, twice; then two broadcasts),
  the projections f₁ as a column [4, 2048, 1] and f₂ as a row [4, 1, 2048]. So the two buffers, as the region finds
  them, hold what the reference computes for them from the same node features and weights.
-/
import proofs.«107842_j19713899889134_1_alg».proof.Proof.Gen.KernelIdeal.Frame
import proofs.«107842_j19713899889134_1_alg».proof.Proof.Gen.ReferenceIdeal.Read
import Idealize.ShloMosaic.Lib.StableHlo.Run

noncomputable section

namespace Cert.Proof.ScorePrefix

open Idealize.ShloMosaic Idealize.ShloMosaic.TcCoe Idealize.SL.Sem Idealize.ShloMosaic.StableHlo

/-- The column f₁, as the region finds it, is the reference's column of the same node features and weights. -/
theorem column_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v8 : Cert.KernelIdeal.S4x2048x1.Idx → EReal)
      = Cert.ReferenceIdeal.Read.val_main_v8 (F := Ideal)
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  dsimp only [Cert.KernelIdeal.Gen.V, Cert.KernelIdeal.Gen.hostOps0]
  after_results
  unfold Cert.ReferenceIdeal.Read.val_main_v8 Cert.ReferenceIdeal.Read.val_main_v3 Cert.ReferenceIdeal.Read.val_main_v2
    Cert.ReferenceIdeal.Read.val_main_v1 Cert.ReferenceIdeal.Read.val_main_v0
  rfl

/-- The row f₂, as the region finds it, is the reference's row of the same node features and weights. -/
theorem row_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v9 : Cert.KernelIdeal.S4x1x2048.Idx → EReal)
      = Cert.ReferenceIdeal.Read.val_main_v9 (F := Ideal)
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  dsimp only [Cert.KernelIdeal.Gen.V, Cert.KernelIdeal.Gen.hostOps0]
  after_results
  unfold Cert.ReferenceIdeal.Read.val_main_v9 Cert.ReferenceIdeal.Read.val_main_v7 Cert.ReferenceIdeal.Read.val_main_v6
    Cert.ReferenceIdeal.Read.val_main_v5 Cert.ReferenceIdeal.Read.val_main_v4
  rfl

end Cert.Proof.ScorePrefix

end
-- ==== Proof.lean ====
/-
  Sparse graph attention: the kernel against the reference, over the extended reals.

  Both programs compute, for a head h, a row r and a column c,
      ½ · A_long(h, r, c) + ½ · A_local(h, r, c),
  where A is the softmax of the row r of the masked logits mask · σ(f₁(h, r) + f₂(h, ·)) over the non-zero entries of
  the mask (the function `GraphAttention.attention`). The projections f₁ and f₂ are the same host operations of the
  arguments in both programs. The kernel works on blocks of 256 whole rows of one head, so its row maxima and row sums
  are those of the array's rows, and its 32 blocks tile the result; the reference spells the logistic function as
  1 / (1 + e^{-x}) and takes one more maximum with −∞. At the ideal values these are the same function, and no
  property of the inputs is used: the precondition is never opened.
-/
import proofs.«107842_j19713899889134_1_alg».proof.Defs
import proofs.«107842_j19713899889134_1_alg».proof.Proof.Gen.Kernel
import proofs.«107842_j19713899889134_1_alg».proof.Proof.Gen.Kernel.Skeleton
import proofs.«107842_j19713899889134_1_alg».proof.Proof.Gen.Kernel.Launch
import proofs.«107842_j19713899889134_1_alg».proof.Proof.Gen.Kernel.Points
import proofs.«107842_j19713899889134_1_alg».proof.Proof.Gen.Kernel.Frame
import proofs.«107842_j19713899889134_1_alg».proof.Proof.Gen.KernelIdeal
import proofs.«107842_j19713899889134_1_alg».proof.Proof.Gen.KernelIdeal.Skeleton
import proofs.«107842_j19713899889134_1_alg».proof.Proof.Gen.KernelIdeal.Launch
import proofs.«107842_j19713899889134_1_alg».proof.Proof.Gen.KernelIdeal.Points
import proofs.«107842_j19713899889134_1_alg».proof.Proof.Gen.KernelIdeal.Frame
import proofs.«107842_j19713899889134_1_alg».proof.Proof.Gen.ReferenceIdeal
import proofs.«107842_j19713899889134_1_alg».proof.Proof.Gen.Pre_finite_inputs
import proofs.«107842_j19713899889134_1_alg».proof.Proof.Gen.KernelIdeal.Value
import proofs.«107842_j19713899889134_1_alg».proof.Proof.Gen.ReferenceIdeal.Run
import proofs.«107842_j19713899889134_1_alg».proof.Proof.Gen.ReferenceIdeal.Read
import proofs.«107842_j19713899889134_1_alg».proof.Proof.KernelArray
import proofs.«107842_j19713899889134_1_alg».proof.Proof.ReferenceAttention
import proofs.«107842_j19713899889134_1_alg».proof.Proof.ScorePrefix
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The kernel's result array ends as `attention` of the masks and of f₁, f₂ as its region finds them; the reference's
    as `attention` of the masks and of its own f₁, f₂; the arguments agree, and f₁, f₂ are the same host operations of
    them in both programs. -/
theorem algebraic : Cert.algebraic_KernelIdeal_ReferenceIdeal := by
  intro m ρ m' ρ' _ hagree
  refine ⟨fun c => Cert.KernelIdeal.Attention.result m c, Cert.KernelIdeal.Attention.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.ReferenceIdeal.Attention.reference_eq,
    (hagree c).1, (hagree c).2.1, (hagree c).2.2.1, (hagree c).2.2.2]
  show _ = GraphAttention.attention (Cert.KernelIdeal.Gen.V m c Cert.KernelIdeal.main_arg0)
    (Cert.KernelIdeal.Gen.V m c Cert.KernelIdeal.main_arg1) (Cert.KernelIdeal.Gen.V m c Cert.KernelIdeal.main_v8)
    (Cert.KernelIdeal.Gen.V m c Cert.KernelIdeal.main_v9)
  rw [Cert.KernelIdeal.Gen.V_main_arg0, Cert.KernelIdeal.Gen.V_main_arg1,
    Cert.Proof.ScorePrefix.column_eq, Cert.Proof.ScorePrefix.row_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
